-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S512x256x256 : Shape := ⟨3, ![512, 256, 256]⟩
abbrev S256x256 : Shape := ⟨2, ![256, 256]⟩
abbrev S256 : Shape := ⟨1, ![256]⟩
abbrev S_ : Shape := ⟨0, ![]⟩

class Facts : Prop where
  bcast_S_S512x256x256 : S_.BroadcastsInDim S512x256x256 (![] : Fin 0 → Fin S512x256x256.rank)
  reducesTo_S512x256x256_S_d0_1_2 : S512x256x256.ReducesTo [0, 1, 2] S_
  h_S_ : 0 < S_.numel
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_

variable [Facts]

def fn {F : FTy → Type} [FloatOps F] (main_arg0 : FVec F S512x256x256 .f32) (main_arg1 : FVec F S256x256 .f32) (main_arg2 : FVec F S256 .f32) : IVec S_ 1 :=
  let main_v0 : FVec F S512x256x256 .f32 := Host.absf main_arg0
  let main_cst : FVec F S_ .f32 := constant S_ .f32 0x7F800000#32
  let main_v1 : FVec F S512x256x256 .f32 := broadcastInDim S512x256x256 ![] bcast_S_S512x256x256 main_cst
  let main_v2 : IVec S512x256x256 1 := cmpf .olt main_v0 main_v1
  let main_c : IVec S_ 1 := constantI S_ 1 1#1
  let main_v3 : IVec S_ 1 := (fun x v => Host.reduce IntOp.andi x v reducesTo_S512x256x256_S_d0_1_2 h_S_) main_v2 main_c
  let main_v4 : FVec F S256x256 .f32 := Host.absf main_arg1
  let main_cst_0 : FVec F S_ .f32 := constant S_ .f32 0x7F800000#32
  let main_v5 : FVec F S256x256 .f32 := broadcastInDim S256x256 ![] bcast_S_S256x256 main_cst_0
  let main_v6 : IVec S256x256 1 := cmpf .olt main_v4 main_v5
  let main_c_1 : IVec S_ 1 := constantI S_ 1 1#1
  let main_v7 : IVec S_ 1 := (fun x v => Host.reduce IntOp.andi x v reducesTo_S256x256_S_d0_1 h_S_) main_v6 main_c_1
  let main_v8 : IVec S_ 1 := andi main_v3 main_v7
  let main_v9 : FVec F S256 .f32 := Host.absf main_arg2
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  main_v13
-- ==== Kernel.lean ====
abbrev S512x256x256 : Shape := ⟨3, ![512, 256, 256]⟩
abbrev S256x256 : Shape := ⟨2, ![256, 256]⟩
abbrev S256 : Shape := ⟨1, ![256]⟩
abbrev S1x256 : Shape := ⟨2, ![1, 256]⟩
abbrev S512x256 : Shape := ⟨2, ![512, 256]⟩
abbrev S16x256x256 : Shape := ⟨3, ![16, 256, 256]⟩
abbrev S16x256 : Shape := ⟨2, ![16, 256]⟩
abbrev S4096x256 : Shape := ⟨2, ![4096, 256]⟩
abbrev S16x1x256 : Shape := ⟨3, ![16, 1, 256]⟩

abbrev nBuf : Space → Nat
  | .hbm => 7
  | .vmem => 6
  | .smem => 0
  | _ => 0

abbrev bufTy : (tb : Table) → Fin (tcTables nBuf tb) → BufTy
  | .hbm, ⟨0, _⟩ => ⟨S512x256x256, .f32⟩
  | .hbm, ⟨1, _⟩ => ⟨S256x256, .f32⟩
  | .hbm, ⟨2, _⟩ => ⟨S256, .f32⟩
  | .hbm, ⟨3, _⟩ => ⟨S256x256, .f32⟩
  | .hbm, ⟨4, _⟩ => ⟨S256x256, .bf16⟩
  | .hbm, ⟨5, _⟩ => ⟨S1x256, .f32⟩
  | .hbm, ⟨6, _⟩ => ⟨S512x256, .f32⟩
  | .local _ .vmem, ⟨0, _⟩ => ⟨S16x256x256, .f32⟩
  | .local _ .vmem, ⟨1, _⟩ => ⟨S16x256x256, .f32⟩
  | .local _ .vmem, ⟨2, _⟩ => ⟨S256x256, .bf16⟩
  | .local _ .vmem, ⟨3, _⟩ => ⟨S1x256, .f32⟩
  | .local _ .vmem, ⟨4, _⟩ => ⟨S16x256, .f32⟩
  | .local _ .vmem, ⟨5, _⟩ => ⟨S16x256, .f32⟩
  | _, _ => ⟨S512x256x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S16x256x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S16x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  transposes_S256x256_S256x256_1_0 : S256x256.Transposes [1, 0] S256x256
  bitsLt_bf16_f32 : FTy.bits .bf16 < FTy.bits .f32
  shapeCasts_S256_S1x256 : S256.ShapeCasts S1x256
  inb_S16x256x256_S16x256x256_0_0_0 : ∀ a, (![0, 0, 0] : Fin 3 → Nat) a + S16x256x256.size a ≤ S16x256x256.size a
  h_S16x256x256 : 0 < S16x256x256.numel
  reduces_S16x256x256_S16x256 : S16x256x256.Reduces [1] S16x256
  inb_S256x256_S256x256_0_0 : ∀ a, (![0, 0] : Fin 2 → Nat) a + S256x256.size a ≤ S256x256.size a
  h_S256x256 : 0 < S256x256.numel
  shapeCasts_S256x256_S256x256 : S256x256.ShapeCasts S256x256
  shapeCasts_S16x256x256_S4096x256 : S16x256x256.ShapeCasts S4096x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S4096x256 : S1x256.Broadcasts S4096x256
  shapeCasts_S4096x256_S16x256x256 : S4096x256.ShapeCasts S16x256x256
  shapeCasts_S16x256_S16x1x256 : S16x256.ShapeCasts S16x1x256
  broadcasts_S16x1x256_S16x256x256 : S16x1x256.Broadcasts S16x256x256
  shapeCasts_S16x1x256_S16x256 : S16x1x256.ShapeCasts S16x256
  inb_S16x256_S16x256_0_0 : ∀ a, (![0, 0] : Fin 2 → Nat) a + S16x256.size a ≤ S16x256.size a
  h_S16x256 : 0 < S16x256.numel
  dot_S4096x256_S256x256_S4096x256_1_0_0_1_n_n_wf : DotDims.WF S4096x256 S256x256 S4096x256 [1] [0] [0] [1] [] []
  dot_S16x256x256_S16x256x256_S16x256x256_2_2_1_1_0_0_wf : DotDims.WF S16x256x256 S16x256x256 S16x256x256 [2] [2] [1] [1] [0] [0]
  dot_S16x1x256_S16x256x256_S16x1x256_2_1_1_2_0_0_wf : DotDims.WF S16x1x256 S16x256x256 S16x1x256 [2] [1] [1] [2] [0] [0]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S16x256x256.size a ≤ S512x256x256.size a
  hwx0_0 : ∀ i : grid0.Coords, EltTy.bits .f32 = 32 ∨ (Rect.block (s := S512x256x256) S16x256x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x256.size a ≤ S256x256.size a
  hwx0_1 : ∀ i : grid0.Coords, EltTy.bits .bf16 = 32 ∨ (Rect.block (s := S256x256) S256x256.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x256.size a ≤ S1x256.size a
  hwx0_2 : ∀ i : grid0.Coords, EltTy.bits .f32 = 32 ∨ (Rect.block (s := S1x256) S1x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S16x256.size a ≤ S512x256.size a
  hwx0_3 : ∀ i : grid0.Coords, EltTy.bits .f32 = 32 ∨ (Rect.block (s := S512x256) S16x256.size (cc0_transform_3 i) (hinb0_3 i)).WholeWords (EltTy.packing .f32)

variable [Facts₀]

def dot_S4096x256_S256x256_S4096x256_1_0_0_1_n_n : DotDims S4096x256 S256x256 S4096x256 where
  lhsContracting := [1]
  rhsContracting := [0]
  lhsNonContracting := [0]
  rhsNonContracting := [1]
  lhsBatch := []
  rhsBatch := []
  wf := dot_S4096x256_S256x256_S4096x256_1_0_0_1_n_n_wf
def dot_S16x256x256_S16x256x256_S16x256x256_2_2_1_1_0_0 : DotDims S16x256x256 S16x256x256 S16x256x256 where
  lhsContracting := [2]
  rhsContracting := [2]
  lhsNonContracting := [1]
  rhsNonContracting := [1]
  lhsBatch := [0]
  rhsBatch := [0]
  wf := dot_S16x256x256_S16x256x256_S16x256x256_2_2_1_1_0_0_wf
def dot_S16x1x256_S16x256x256_S16x1x256_2_1_1_2_0_0 : DotDims S16x1x256 S16x256x256 S16x1x256 where
  lhsContracting := [2]
  rhsContracting := [1]
  lhsNonContracting := [1]
  rhsNonContracting := [2]
  lhsBatch := [0]
  rhsBatch := [0]
  wf := dot_S16x1x256_S16x256x256_S16x1x256_2_1_1_2_0_0_wf

abbrev win0_0 : Pipeline.Window sig grid0 :=
  Pipeline.Window.ofSpec (Memref.whole main_arg0) S16x256x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S256x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3) S16x256.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S512x256x256 : Shape := ⟨3, ![512, 256, 256]⟩
abbrev S256x256 : Shape := ⟨2, ![256, 256]⟩
abbrev S256 : Shape := ⟨1, ![256]⟩
abbrev S1x1x256 : Shape := ⟨3, ![1, 1, 256]⟩
abbrev S_ : Shape := ⟨0, ![]⟩
abbrev S512x256 : Shape := ⟨2, ![512, 256]⟩
abbrev S512x1x256 : Shape := ⟨3, ![512, 1, 256]⟩

abbrev nBuf : Space → Nat
  | .hbm => 25
  | .vmem => 0
  | .smem => 0
  | _ => 0

abbrev bufTy : (tb : Table) → Fin (tcTables nBuf tb) → BufTy
  | .hbm, ⟨0, _⟩ => ⟨S512x256x256, .f32⟩
  | .hbm, ⟨1, _⟩ => ⟨S256x256, .f32⟩
  | .hbm, ⟨2, _⟩ => ⟨S256, .f32⟩
  | .hbm, ⟨3, _⟩ => ⟨S512x256x256, .f32⟩
  | .hbm, ⟨4, _⟩ => ⟨S1x1x256, .f32⟩
  | .hbm, ⟨5, _⟩ => ⟨S512x256x256, .f32⟩
  | .hbm, ⟨6, _⟩ => ⟨S512x256x256, .f32⟩
  | .hbm, ⟨7, _⟩ => ⟨S512x256x256, .f32⟩
  | .hbm, ⟨8, _⟩ => ⟨S_, .f32⟩
  | .hbm, ⟨9, _⟩ => ⟨S512x256, .f32⟩
  | .hbm, ⟨10, _⟩ => ⟨S_, .f32⟩
  | .hbm, ⟨11, _⟩ => ⟨S512x256, .f32⟩
  | .hbm, ⟨12, _⟩ => ⟨S512x256, .f32⟩
  | .hbm, ⟨13, _⟩ => ⟨S512x1x256, .f32⟩
  | .hbm, ⟨14, _⟩ => ⟨S512x256x256, .f32⟩
  | .hbm, ⟨15, _⟩ => ⟨S512x256x256, .f32⟩
  | .hbm, ⟨16, _⟩ => ⟨S512x256x256, .f32⟩
  | .hbm, ⟨17, _⟩ => ⟨S_, .f32⟩
  | .hbm, ⟨18, _⟩ => ⟨S512x256, .f32⟩
  | .hbm, ⟨19, _⟩ => ⟨S512x1x256, .f32⟩
  | .hbm, ⟨20, _⟩ => ⟨S512x256x256, .f32⟩
  | .hbm, ⟨21, _⟩ => ⟨S512x256x256, .f32⟩
  | .hbm, ⟨22, _⟩ => ⟨S512x256x256, .f32⟩
  | .hbm, ⟨23, _⟩ => ⟨S_, .f32⟩
  | .hbm, ⟨24, _⟩ => ⟨S512x256, .f32⟩
  | _, _ => ⟨S512x256x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst_1 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_cst_2 : Ref sig .tc := ⟨.hbm, 23, rfl⟩
abbrev main_v17 : Ref sig .tc := ⟨.hbm, 24, rfl⟩

abbrev nD : Nat := 1
abbrev τ : Topo := Topo.v7x

variable {F : FTy → Type} [FloatOps F]

class Facts₀ : Prop where
  bcast_S256_S1x1x256_2 : S256.BroadcastsInDim S1x1x256 (![2] : Fin 1 → Fin S1x1x256.rank)
  bcast_S1x1x256_S512x256x256_0_1_2 : S1x1x256.BroadcastsInDim S512x256x256 (![0, 1, 2] : Fin 3 → Fin S512x256x256.rank)
  reducesTo_S512x256x256_S512x256_d1 : S512x256x256.ReducesTo [1] S512x256
  h_S_ : 0 < S_.numel
  bcast_S_S512x256 : S_.BroadcastsInDim S512x256 (![] : Fin 0 → Fin S512x256.rank)
  bcast_S512x256_S512x1x256_0_2 : S512x256.BroadcastsInDim S512x1x256 (![0, 2] : Fin 2 → Fin S512x1x256.rank)
  bcast_S512x1x256_S512x256x256_0_1_2 : S512x1x256.BroadcastsInDim S512x256x256 (![0, 1, 2] : Fin 3 → Fin S512x256x256.rank)
  dot_S512x256x256_S256x256_S512x256x256_2_1_01_0_n_n_wf : DotDims.WF S512x256x256 S256x256 S512x256x256 [2] [1] [0, 1] [0] [] []
  dot_S512x256x256_S512x256x256_S512x256x256_2_2_1_1_0_0_wf : DotDims.WF S512x256x256 S512x256x256 S512x256x256 [2] [2] [1] [1] [0] [0]
  dot_S512x256x256_S512x256x256_S512x256x256_2_1_1_2_0_0_wf : DotDims.WF S512x256x256 S512x256x256 S512x256x256 [2] [1] [1] [2] [0] [0]

variable [Facts₀]

def dot_S512x256x256_S256x256_S512x256x256_2_1_01_0_n_n : DotDims S512x256x256 S256x256 S512x256x256 where
  lhsContracting := [2]
  rhsContracting := [1]
  lhsNonContracting := [0, 1]
  rhsNonContracting := [0]
  lhsBatch := []
  rhsBatch := []
  wf := dot_S512x256x256_S256x256_S512x256x256_2_1_01_0_n_n_wf
def dot_S512x256x256_S512x256x256_S512x256x256_2_2_1_1_0_0 : DotDims S512x256x256 S512x256x256 S512x256x256 where
  lhsContracting := [2]
  rhsContracting := [2]
  lhsNonContracting := [1]
  rhsNonContracting := [1]
  lhsBatch := [0]
  rhsBatch := [0]
  wf := dot_S512x256x256_S512x256x256_S512x256x256_2_2_1_1_0_0_wf
def dot_S512x256x256_S512x256x256_S512x256x256_2_1_1_2_0_0 : DotDims S512x256x256 S512x256x256 S512x256x256 where
  lhsContracting := [2]
  rhsContracting := [1]
  lhsNonContracting := [1]
  rhsNonContracting := [2]
  lhsBatch := [0]
  rhsBatch := [0]
  wf := dot_S512x256x256_S512x256x256_S512x256x256_2_1_1_2_0_0_wf

class Facts : Prop extends Facts₀ where

variable [Facts]
-- ==== Proof.Pooling.lean ====
/-
  Attention pooling with the softmax taken along the QUERY axis, for one batch element.

  From a feature matrix `X` (row `n`, column `h`), a projection `W` (row `k`, column `h`) and a bias `β`:
    att n k   = (∑ h, X n h · W k h) + β k              the projected features,
    score n m = ∑ h, att n h · X m h                    every query `n` against every key `m`,
    colMax m  = max over n of score n m                 the largest score of column `m`,
    wexp n m  = exp (score n m − colMax m)              the unnormalised softmax weight (softmax over `n`),
    colSum m  = ∑ n, wexp n m                           its normaliser.
  The pooled output can be written two ways. The long way normalises every weight and then sums the weighted features
  over both axes, `∑ n, ∑ k, X n k · (wexp k m / colSum m)`; the short way first sums the features over the rows,
  weights that one row, and divides once, `(∑ k, (∑ n, X n k) · wexp k m) / colSum m`. On the extended reals the two
  agree when every input is a real number (proved in the module on the pooling law): then every score is real, so is
  the column's maximum, every weight is a positive real and the normaliser a positive real, and the identity is the
  distributive law in ℝ.

  The last section reads these for whole arrays: batch element `b` of a `[512, 256, 256]` array is one such matrix.
-/
import Idealize.ShloMosaic.PureOps.Ideal
import Idealize.ShloMosaic.PureOps.Ideal.Laws
import Idealize.ShloMosaic.Lib.ValueIdx

noncomputable section

open scoped BigOperators

namespace Cert.Pool

open Idealize.ShloMosaic Idealize.ShloMosaic.ValueIdx

/-- A `256 × 256` matrix of extended reals, and a row of `256`. -/
abbrev Mat : Type := Fin 256 → Fin 256 → EReal
abbrev Row : Type := Fin 256 → EReal

/-- An extended real that is a real number. -/
def IsReal (x : EReal) : Prop := ∃ r : ℝ, x = (r : EReal)

/-- The projected features: `X · Wᵀ + β`. -/
def att (X W : Mat) (β : Row) (n k : Fin 256) : EReal := (∑ h : Fin 256, X n h * W k h) + β k

/-- The score of query `n` against key `m`. -/
def score (X W : Mat) (β : Row) (n m : Fin 256) : EReal := ∑ h : Fin 256, att X W β n h * X m h

/-- The largest score of column `m`, over the queries. -/
def colMax (X W : Mat) (β : Row) (m : Fin 256) : EReal :=
  (Finset.univ : Finset (Fin 256)).fold max (⊥ : EReal) (fun n => score X W β n m)

/-- The unnormalised softmax weight of query `n` in column `m`. -/
def wexp (X W : Mat) (β : Row) (n m : Fin 256) : EReal := Ideal.exp (score X W β n m - colMax X W β m)

/-- The normaliser of column `m`. -/
def colSum (X W : Mat) (β : Row) (m : Fin 256) : EReal := ∑ n : Fin 256, wexp X W β n m

/-- Pooling the long way: normalise each weight, multiply the features by the weights, sum over both axes. -/
def pooledLong (X W : Mat) (β : Row) (m : Fin 256) : EReal :=
  ∑ n : Fin 256, ∑ k : Fin 256, X n k * Ideal.div (wexp X W β k m) (colSum X W β m)

/-- Pooling the short way: sum the features over the rows first, weight that one row, divide once. -/
def pooledShort (X W : Mat) (β : Row) (m : Fin 256) : EReal :=
  Ideal.div (∑ k : Fin 256, (∑ n : Fin 256, X n k) * wexp X W β k m) (colSum X W β m)

/-- The f32 pattern of minus infinity denotes the bottom of the extended reals. -/
theorem negInf_eq_bot : Ideal.ofBits .f32 0xFF800000#32 = (⊥ : EReal) := by
  simp [Ideal.ofBits, Ideal.ieee]

/-! ## Whole arrays -/

/-- Batch element `b` of a `[512, 256, 256]` array, as a matrix. -/
def slab (x : (⟨3, ![512, 256, 256]⟩ : Shape).Idx → EReal) (b : Fin 512) : Mat := fun n h => x (ix3 b n h)

/-- A `[256, 256]` array as a matrix, and a `[256]` array as a row. -/
def asMat (w : (⟨2, ![256, 256]⟩ : Shape).Idx → EReal) : Mat := fun k h => w (ix2 k h)
def asRow (β : (⟨1, ![256]⟩ : Shape).Idx → EReal) : Row := fun k => β (ix1 k)

/-- The pooled `[512, 256]` output of the three argument arrays: entry `(b, m)` pools batch element `b` at column `m`. -/
def pooled (x : (⟨3, ![512, 256, 256]⟩ : Shape).Idx → EReal) (w : (⟨2, ![256, 256]⟩ : Shape).Idx → EReal)
    (β : (⟨1, ![256]⟩ : Shape).Idx → EReal) : (⟨2, ![512, 256]⟩ : Shape).Idx → EReal :=
  fun i => pooledShort (slab x ⟨(i 0).val, (i 0).isLt⟩) (asMat w) (asRow β) ⟨(i 1).val, (i 1).isLt⟩

theorem pooled_ix2 (x : (⟨3, ![512, 256, 256]⟩ : Shape).Idx → EReal) (w : (⟨2, ![256, 256]⟩ : Shape).Idx → EReal)
    (β : (⟨1, ![256]⟩ : Shape).Idx → EReal) (b : Fin 512) (m : Fin 256) :
    pooled x w β (ix2 b m) = pooledShort (slab x b) (asMat w) (asRow β) m := rfl

end Cert.Pool

end
-- ==== Proof.PoolingLaw.lean ====
/-
  The pooling law: on real inputs, pooling the long way and the short way give the same extended real.

  Every input is a real number, so every projected feature and every score is a real; the maximum of a column,
  a fold of `max` over the nonempty set of queries, is then a real too; each weight is the exponential of a real,
  a positive real; the normaliser is a sum of positive reals over a nonempty set, a positive real `S`, so dividing
  by it is multiplying by the real `1 / S`. Both ways of pooling are then coercions of real numbers, and the two
  real numbers agree by exchanging the two sums and the distributive law.
-/
import proofs.«405729_j22308060136280_3_alg».proof.Proof.Pooling

noncomputable section

open scoped BigOperators

namespace Cert.Pool

open Idealize.ShloMosaic

/-- The coercion from the reals to the extended reals commutes with finite sums. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The coercion from the reals to the extended reals commutes with `max`. -/
theorem coe_max (a b : ℝ) : ((max a b : ℝ) : EReal) = max (a : EReal) (b : EReal) :=
  EReal.coe_strictMono.monotone.map_max

/-- Folding `max` from `⊥` over a nonempty finite family of reals gives a real. -/
theorem fold_max_coe {ι : Type*} (s : Finset ι) (hs : s.Nonempty) (f : ι → ℝ) :
    ∃ M : ℝ, s.fold max (⊥ : EReal) (fun i => (f i : EReal)) = (M : EReal) := by
  induction hs using Finset.Nonempty.cons_induction with
  | singleton a => exact ⟨f a, by rw [Finset.fold_singleton]; exact max_eq_left bot_le⟩
  | cons a s ha hs ih =>
    obtain ⟨M, hM⟩ := ih
    refine ⟨max (f a) M, ?_⟩
    rw [Finset.fold_cons, hM, coe_max]

/-- The distributive law behind the pooling law, in the reals: the weights `e k * c` can be taken out of the
    sum over the rows, and the common factor `c` out of the sum over the columns. -/
theorem real_pooling {ι κ : Type*} (s : Finset ι) (t : Finset κ) (x : ι → κ → ℝ) (e : κ → ℝ) (c : ℝ) :
    ∑ n ∈ s, ∑ k ∈ t, x n k * (e k * c) = (∑ k ∈ t, (∑ n ∈ s, x n k) * e k) * c := by
  rw [Finset.sum_comm, Finset.sum_mul]
  refine Finset.sum_congr rfl fun k _ => ?_
  rw [Finset.sum_mul, Finset.sum_mul]
  refine Finset.sum_congr rfl fun n _ => ?_
  ring

/-- On real inputs the two ways of pooling agree. -/
theorem pooledLong_eq_pooledShort (X W : Mat) (β : Row) (hX : ∀ n h, IsReal (X n h)) (hW : ∀ k h, IsReal (W k h))
    (hβ : ∀ k, IsReal (β k)) (m : Fin 256) : pooledLong X W β m = pooledShort X W β m := by
  -- real witnesses of the three inputs
  choose x hx using hX
  choose w hw using hW
  choose b hb using hβ
  -- the projected features are reals
  have hatt : ∀ n k, att X W β n k = (((∑ h, x n h * w k h) + b k : ℝ) : EReal) := by
    intro n k
    simp only [att, hx, hw, hb, EReal.coe_add, coe_sum, EReal.coe_mul]
  -- the scores are reals
  have hscore : ∀ n, score X W β n m
      = ((∑ h, ((∑ h', x n h' * w h h') + b h) * x m h : ℝ) : EReal) := by
    intro n
    simp only [score, hatt, hx, coe_sum, EReal.coe_mul]
  -- the column's maximum is a real
  obtain ⟨M, hM⟩ := fold_max_coe (Finset.univ : Finset (Fin 256)) Finset.univ_nonempty
    (fun n => ∑ h, ((∑ h', x n h' * w h h') + b h) * x m h)
  have hmax : colMax X W β m = (M : EReal) := by
    simp only [colMax, hscore]
    exact hM
  -- each weight is the exponential of a real
  have hwexp : ∀ n, wexp X W β n m
      = ((Real.exp ((∑ h, ((∑ h', x n h' * w h h') + b h) * x m h) - M) : ℝ) : EReal) := by
    intro n
    rw [wexp, hscore, hmax, ← EReal.coe_sub, Ideal.exp_coe]
  -- the normaliser is a positive real
  have hsum : colSum X W β m
      = ((∑ n, Real.exp ((∑ h, ((∑ h', x n h' * w h h') + b h) * x m h) - M) : ℝ) : EReal) := by
    simp only [colSum, hwexp, coe_sum]
  have hpos : (0 : ℝ) < ∑ n : Fin 256, Real.exp ((∑ h, ((∑ h', x n h' * w h h') + b h) * x m h) - M) :=
    Finset.sum_pos (fun n _ => Real.exp_pos _) Finset.univ_nonempty
  -- both ways of pooling are coercions of reals, equal by the distributive law
  simp only [pooledLong, pooledShort, hsum, Ideal.div_coe (ne_of_gt hpos), hwexp, hx]
  simp only [← EReal.coe_mul, ← coe_sum]
  exact congrArg _ (real_pooling _ _ _ _ _)

end Cert.Pool

end
-- ==== Proof.RealInputs.lean ====
/-
  The precondition read: where the three finiteness tests all pass, every entry of every input is a real number.
-/
import proofs.«405729_j22308060136280_3_alg».proof.Proof.Gen.Pre_finite_inputs
import proofs.«405729_j22308060136280_3_alg».proof.Proof.Pooling
import Idealize.ShloMosaic.Lib.ReduceAll
import Idealize.ShloMosaic.PureOps.Ideal.Laws
import Idealize.ShloMosaic.Lib.ValueIdx

noncomputable section

namespace Cert.Pre_finite_inputs.RealInputs

open Cert.Pre_finite_inputs Idealize.ShloMosaic Idealize.ShloMosaic.ValueIdx Cert.Pool

/-- The binary32 pattern with an all-ones exponent, a zero fraction and a clear sign denotes `+∞`. -/
theorem inf_pattern : Ideal.ofBits .f32 0x7F800000#32 = (⊤ : EReal) := by
  simp [Ideal.ofBits, Ideal.ieee]

/-- An extended real whose absolute value `max a (-a)` is strictly below `+∞` is a real number: at `-∞` and at `+∞`
    the absolute value is `+∞` itself. -/
theorem isReal_of_abs_lt_top (a : EReal) (h : Ideal.cmp .olt (max a (-a)) (⊤ : EReal) = 1#1) : IsReal a := by
  induction a using EReal.rec with
  | bot => simp [Ideal.cmp] at h
  | coe r => exact ⟨r, rfl⟩
  | top => simp [Ideal.cmp] at h

/-- The result of a reduction over every axis has one index. -/
instance : Subsingleton S_.Idx := ⟨fun a b => funext fun d => d.elim0⟩

/-- One finiteness test, at any shape: if the `and` over every entry of `|v| < +∞` is one, every entry of `v` is real. -/
theorem real_of_all {s : Shape} {axes : List (Fin s.rank)} (hb : S_.BroadcastsInDim s (![] : Fin 0 → Fin s.rank))
    (hr : s.ReducesTo axes S_) (h0 : 0 < S_.numel) (v : FVec Ideal s .f32)
    (e : Host.reduce IntOp.andi
        (cmpf .olt (Host.absf v) (broadcastInDim s ![] hb (constant (F := Ideal) S_ .f32 0x7F800000#32)))
        (constantI S_ 1 1#1) hr h0 ix0 = 1#1) (i : s.Idx) : IsReal (v i) := by
  have hi := Host.reduce_andi_all _ _ hr h0 ix0 e i
  refine isReal_of_abs_lt_top (v i) ?_
  rw [← inf_pattern]
  exact hi

/-- If the precondition's predicate is all ones on `(x, w, β)`, every entry of each is a real number. -/
theorem real_of_pre (x : FVec Ideal S512x256x256 .f32) (w : FVec Ideal S256x256 .f32) (β : FVec Ideal S256 .f32)
    (h : Cert.Pre_finite_inputs.fn (F := Ideal) x w β = fun _ => 1#1) :
    (∀ i, IsReal (x i)) ∧ (∀ i, IsReal (w i)) ∧ (∀ i, IsReal (β i)) := by
  have h0 := congrFun h ix0
  unfold Cert.Pre_finite_inputs.fn at h0
  dsimp only at h0
  obtain ⟨h12, h3⟩ := IntOp.andi_eq_one.1 h0
  obtain ⟨h1, h2⟩ := IntOp.andi_eq_one.1 h12
  exact ⟨fun i => real_of_all _ _ _ x h1 i, fun i => real_of_all _ _ _ w h2 i, fun i => real_of_all _ _ _ β h3 i⟩

end Cert.Pre_finite_inputs.RealInputs

end
-- ==== Proof.RefPooling.lean ====
/-
  The reference's result, read at an index: entry `(b, m)` of its output pools batch element `b` the long way.

  The reference is read one operation at a time, at batch element `b`: the projected features, the scores, the
  largest score of each column, the exponential weights, their column sums, the normalised weights, and at last the
  weighted sum of the features over both axes. Each stage is one small lemma stated at an index given by its
  coordinates, and each uses the stages before it under the sums.
-/
import proofs.«405729_j22308060136280_3_alg».proof.Proof.Gen.ReferenceIdeal.Read
import proofs.«405729_j22308060136280_3_alg».proof.Proof.Pooling
import Idealize.ShloMosaic.PureOps.Reduce

noncomputable section

open scoped BigOperators

namespace Cert.ReferenceIdeal.RefPooling

open Cert.ReferenceIdeal Cert.ReferenceIdeal.Gen Cert.ReferenceIdeal.Read Idealize.ShloMosaic Idealize.ShloMosaic.ValueIdx Cert.Pool

/-! ## Which operand index each operation reads, at an index given by its coordinates -/

theorem lidx0 (b : Fin 512) (n k h : Fin 256) : lidx_main_v0 (ix3 b n k) h = ix3 b n h :=
  funext fun a => Fin.ext (by match a with | ⟨0, _⟩ => rfl | ⟨1, _⟩ => rfl | ⟨2, _⟩ => rfl)

theorem ridx0 (b : Fin 512) (n k h : Fin 256) : ridx_main_v0 (ix3 b n k) h = ix2 k h :=
  funext fun a => Fin.ext (by match a with | ⟨0, _⟩ => rfl | ⟨1, _⟩ => rfl)

theorem idx12 (b : Fin 512) (n k : Fin 256) : idx_main_v1 (idx_main_v2 (ix3 b n k)) = ix1 k :=
  funext fun a => Fin.ext (by match a with | ⟨0, _⟩ => rfl)

theorem lidx4 (b : Fin 512) (n m h : Fin 256) : lidx_main_v4 (ix3 b n m) h = ix3 b n h :=
  funext fun a => Fin.ext (by match a with | ⟨0, _⟩ => rfl | ⟨1, _⟩ => rfl | ⟨2, _⟩ => rfl)

theorem ridx4 (b : Fin 512) (n m h : Fin 256) : ridx_main_v4 (ix3 b n m) h = ix3 b m h :=
  funext fun a => Fin.ext (by match a with | ⟨0, _⟩ => rfl | ⟨1, _⟩ => rfl | ⟨2, _⟩ => rfl)

theorem idx89 (b : Fin 512) (n m : Fin 256) : idx_main_v8 (idx_main_v9 (ix3 b n m)) = ix2 b m :=
  funext fun a => Fin.ext (by match a with | ⟨0, _⟩ => rfl | ⟨1, _⟩ => rfl)

theorem idx12s (b : Fin 512) (m k : Fin 256) : idx_main_v12 (ix2 b m) k = ix3 b k m :=
  funext fun a => Fin.ext (by match a with | ⟨0, _⟩ => rfl | ⟨1, _⟩ => rfl | ⟨2, _⟩ => rfl)

theorem idx1314 (b : Fin 512) (n m : Fin 256) : idx_main_v13 (idx_main_v14 (ix3 b n m)) = ix2 b m :=
  funext fun a => Fin.ext (by match a with | ⟨0, _⟩ => rfl | ⟨1, _⟩ => rfl)

theorem lidx16 (b : Fin 512) (n m k : Fin 256) : lidx_main_v16 (ix3 b n m) k = ix3 b n k :=
  funext fun a => Fin.ext (by match a with | ⟨0, _⟩ => rfl | ⟨1, _⟩ => rfl | ⟨2, _⟩ => rfl)

theorem ridx16 (b : Fin 512) (n m k : Fin 256) : ridx_main_v16 (ix3 b n m) k = ix3 b k m :=
  funext fun a => Fin.ext (by match a with | ⟨0, _⟩ => rfl | ⟨1, _⟩ => rfl | ⟨2, _⟩ => rfl)

theorem idx17s (b : Fin 512) (m n : Fin 256) : idx_main_v17 (ix2 b m) n = ix3 b n m :=
  funext fun a => Fin.ext (by match a with | ⟨0, _⟩ => rfl | ⟨1, _⟩ => rfl | ⟨2, _⟩ => rfl)

/-- Reducing `[512, 256, 256]` along axis 1: over `(b, m)`, coordinate `k` put back is `(b, k, m)`. -/
theorem lift_mid (h : S512x256x256.Reduces [1] S512x256) (b : Fin 512) (m : Fin 256)
    (k : Fin (S512x256x256.size 1)) : h.lift (ix2 b m) k = ix3 b (⟨k.val, k.isLt⟩ : Fin 256) m := by
  funext c; apply Fin.ext
  fin_cases c <;> rfl

/-! ## The stages -/

section Stages
variable (x : FVec Ideal S512x256x256 .f32) (w : FVec Ideal S256x256 .f32) (β : FVec Ideal S256 .f32)

/-- The projected features of batch element `b`. -/
theorem att_apply (b : Fin 512) (n k : Fin 256) :
    val_main_v3 (F := Ideal) x w β (ix3 b n k) = att (slab x b) (asMat w) (asRow β) n k := by
  rw [val_main_v3_apply, val_main_v0_apply, val_main_v2_apply, val_main_v1_apply, idx12, Ideal.addf_def]
  refine congrArg (· + β (ix1 k)) (Finset.sum_congr rfl fun h _ => ?_)
  rw [lidx0, ridx0]
  rfl

/-- The scores of batch element `b`. -/
theorem score_apply (b : Fin 512) (n m : Fin 256) :
    val_main_v4 (F := Ideal) x w β (ix3 b n m) = score (slab x b) (asMat w) (asRow β) n m := by
  rw [val_main_v4_apply]
  refine Finset.sum_congr rfl fun h _ => ?_
  rw [lidx4, ridx4, att_apply]
  rfl

/-- The fold of the maximum over the query axis, from the bottom element, is the column's largest score. -/
theorem reduceMax_apply (b : Fin 512) (m : Fin 256) :
    val_main_v5 (F := Ideal) x w β (ix2 b m) = colMax (slab x b) (asMat w) (asRow β) m := by
  have h : S512x256x256.Reduces [1] S512x256 := by decide
  have e := Host.reduce_eq_fold_single (α := Ideal .f32) (FloatOps.maximumf (F := Ideal) (φ := .f32))
    (val_main_v4 (F := Ideal) x w β) (val_main_cst (F := Ideal)) reducesTo_S512x256x256_S512x256_d1 h h_S_ (ix2 b m)
  refine e.trans ?_
  have hf : (val_main_v4 (F := Ideal) x w β ∘ h.lift (ix2 b m))
      = fun k : Fin 256 => score (slab x b) (asMat w) (asRow β) k m := by
    funext k
    show val_main_v4 (F := Ideal) x w β (h.lift (ix2 b m) k) = _
    rw [lift_mid h b m k]
    exact score_apply x w β b _ m
  rw [hf, val_main_cst_apply, Ideal.ofBits_def, negInf_eq_bot]
  rfl

/-- The largest score of each column of batch element `b`. -/
theorem colMax_apply (b : Fin 512) (m : Fin 256) :
    val_main_v7 (F := Ideal) x w β (ix2 b m) = colMax (slab x b) (asMat w) (asRow β) m := by
  rw [val_main_v7_apply, val_main_v6_apply, val_main_cst_0_apply, reduceMax_apply, Ideal.ofBits_def, negInf_eq_bot,
    Ideal.maximumf_def]
  exact max_bot_left _

/-- The exponential weights of batch element `b`. -/
theorem wexp_apply (b : Fin 512) (n m : Fin 256) :
    val_main_v11 (F := Ideal) x w β (ix3 b n m) = wexp (slab x b) (asMat w) (asRow β) n m := by
  rw [val_main_v11_apply, val_main_v10_apply, val_main_v9_apply, val_main_v8_apply, idx89, score_apply, colMax_apply,
    Ideal.subf_def, Ideal.hostUnary_exp_def]
  rfl

/-- The column sums of the weights of batch element `b`. -/
theorem colSum_apply (b : Fin 512) (m : Fin 256) :
    val_main_v12 (F := Ideal) x w β (ix2 b m) = colSum (slab x b) (asMat w) (asRow β) m := by
  rw [val_main_v12_apply, val_main_cst_1_apply, Ideal.ofBits_def, Ideal.ofBits_zero_f32, zero_add]
  refine Finset.sum_congr rfl fun k _ => ?_
  rw [idx12s, wexp_apply]

/-- The normalised weights of batch element `b`. -/
theorem weight_apply (b : Fin 512) (k m : Fin 256) :
    val_main_v15 (F := Ideal) x w β (ix3 b k m)
      = Ideal.div (wexp (slab x b) (asMat w) (asRow β) k m) (colSum (slab x b) (asMat w) (asRow β) m) := by
  rw [val_main_v15_apply, val_main_v14_apply, val_main_v13_apply, idx1314, wexp_apply, colSum_apply,
    Ideal.hostDivf_def]

/-- The features of row `n` weighted and summed over the columns. -/
theorem weighted_apply (b : Fin 512) (n m : Fin 256) :
    val_main_v16 (F := Ideal) x w β (ix3 b n m)
      = ∑ k : Fin 256, slab x b n k
          * Ideal.div (wexp (slab x b) (asMat w) (asRow β) k m) (colSum (slab x b) (asMat w) (asRow β) m) := by
  rw [val_main_v16_apply]
  refine Finset.sum_congr rfl fun k _ => ?_
  rw [lidx16, ridx16, weight_apply]
  rfl

end Stages

/-- Entry `(b, m)` of the reference's result is batch element `b` pooled the long way at column `m`. -/
theorem result_apply (x : FVec Ideal S512x256x256 .f32) (w : FVec Ideal S256x256 .f32) (β : FVec Ideal S256 .f32)
    (b : Fin 512) (m : Fin 256) :
    val_main_v17 (F := Ideal) x w β (ix2 b m) = pooledLong (slab x b) (asMat w) (asRow β) m := by
  rw [val_main_v17_apply, val_main_cst_2_apply, Ideal.ofBits_def, Ideal.ofBits_zero_f32, zero_add]
  refine Finset.sum_congr rfl fun n _ => ?_
  rw [idx17s, weighted_apply]

end Cert.ReferenceIdeal.RefPooling

end
-- ==== Proof.LibStack.lean ====
/-
  A stack of matrices, read at an index given by coordinates.

  An `[a, b, c]` array is a stack of `a` matrices. The layout steps a reduction over the MIDDLE axis goes through, and
  the flattening of the stack into one tall matrix, are read here at `(p, n, q)`:
  the stack's rows laid end to end as an `[r, c]` matrix and back (row `p · b + n` is row `n` of matrix `p`); an
  `[a, c]` matrix given a unit middle axis, `[a, 1, c]`, and that axis dropped again; the `[a, 1, c]` array spread
  over a middle axis of any length; and, at the ideal instance, the sum and the maximum over the middle axis as a
  `Fin`-indexed sum and a fold of `max` over `n`.
-/
import Idealize.ShloMosaic.Lib.Pipeline.Value
import Idealize.ShloMosaic.Lib.ValueIdx
import Idealize.ShloMosaic.PureOps.Ideal.Laws

noncomputable section

open scoped BigOperators

namespace Cert.LibStack

open Idealize.ShloMosaic Idealize.ShloMosaic.ValueIdx

/-! ## Layout -/

section Layout
variable {α : Type}

/-- The stack's rows laid end to end: row `p · b + n` of the tall matrix is row `n` of matrix `p`. -/
theorem flatten_apply {a b c r : ℕ} (x : (⟨3, ![a, b, c]⟩ : Shape).Idx → α)
    (h : (⟨3, ![a, b, c]⟩ : Shape).ShapeCasts ⟨2, ![r, c]⟩) (p : Fin a) (n : Fin b) (k : Fin c)
    (hr : p.val * b + n.val < r) :
    shapeCast ⟨2, ![r, c]⟩ x h (ix2 (⟨p.val * b + n.val, hr⟩ : Fin r) k) = x (ix3 p n k) :=
  shapeCast_apply x h _ _ (by
    rw [Shape.rowMajor_val_three, Shape.rowMajor_val_two]
    rfl)

/-- The tall matrix cut back into the stack: row `n` of matrix `p` is row `p · b + n`. -/
theorem unflatten_apply {a b c r : ℕ} (y : (⟨2, ![r, c]⟩ : Shape).Idx → α)
    (h : (⟨2, ![r, c]⟩ : Shape).ShapeCasts ⟨3, ![a, b, c]⟩) (p : Fin a) (n : Fin b) (k : Fin c)
    (hr : p.val * b + n.val < r) :
    shapeCast ⟨3, ![a, b, c]⟩ y h (ix3 p n k) = y (ix2 (⟨p.val * b + n.val, hr⟩ : Fin r) k) :=
  shapeCast_apply y h _ _ (by
    rw [Shape.rowMajor_val_three, Shape.rowMajor_val_two]
    rfl)

/-- An `[a, c]` matrix given a unit middle axis reads, at `(p, u, q)`, the matrix at `(p, q)`. -/
theorem addMid_apply {a c : ℕ} (x : (⟨2, ![a, c]⟩ : Shape).Idx → α)
    (h : (⟨2, ![a, c]⟩ : Shape).ShapeCasts ⟨3, ![a, 1, c]⟩) (p : Fin a) (u : Fin 1) (q : Fin c) :
    shapeCast ⟨3, ![a, 1, c]⟩ x h (ix3 p u q) = x (ix2 p q) :=
  shapeCast_apply x h _ _ (by
    have hu : u.val = 0 := by omega
    rw [Shape.rowMajor_val_three, Shape.rowMajor_val_two]
    show p.val * c + q.val = (p.val * 1 + u.val) * c + q.val
    rw [hu, Nat.mul_one, Nat.add_zero])

/-- The unit middle axis dropped: the `[a, c]` matrix reads, at `(p, q)`, the array at `(p, 0, q)`. -/
theorem dropMid_apply {a c : ℕ} (x : (⟨3, ![a, 1, c]⟩ : Shape).Idx → α)
    (h : (⟨3, ![a, 1, c]⟩ : Shape).ShapeCasts ⟨2, ![a, c]⟩) (p : Fin a) (q : Fin c) :
    shapeCast ⟨2, ![a, c]⟩ x h (ix2 p q) = x (ix3 p (0 : Fin 1) q) :=
  shapeCast_apply x h _ _ (by
    rw [Shape.rowMajor_val_three, Shape.rowMajor_val_two]
    show (p.val * 1 + 0) * c + q.val = p.val * c + q.val
    rw [Nat.mul_one, Nat.add_zero])

/-- An `[a, 1, c]` array spread over a middle axis of length `b` reads, at `(p, n, q)`, the array at `(p, 0, q)`. -/
theorem spreadMid_apply {a b c : ℕ} (v : (⟨3, ![a, 1, c]⟩ : Shape).Idx → α)
    (h : (⟨3, ![a, 1, c]⟩ : Shape).Broadcasts ⟨3, ![a, b, c]⟩) (p : Fin a) (n : Fin b) (q : Fin c) :
    broadcastTo ⟨3, ![a, b, c]⟩ v h (ix3 p n q) = v (ix3 p (0 : Fin 1) q) := by
  refine broadcastTo_apply v h (ix3 p n q) (ix3 p (0 : Fin 1) q) fun ax => ?_
  match ax with
  | ⟨0, _⟩ =>
    show p.val = if a = 1 then 0 else p.val
    split
    · have := p.isLt; omega
    · rfl
  | ⟨1, _⟩ => rfl
  | ⟨2, _⟩ =>
    show q.val = if c = 1 then 0 else q.val
    split
    · have := q.isLt; omega
    · rfl

end Layout

/-! ## Which source index a reduced index and a middle coordinate name -/

/-- Reducing `[a, b, c]` along its middle axis: over `(p, q)`, coordinate `k` put back is `(p, k, q)`. -/
theorem lift_mid {a b c : ℕ} (h : (⟨3, ![a, b, c]⟩ : Shape).Reduces [1] (⟨2, ![a, c]⟩ : Shape)) (p : Fin a) (q : Fin c)
    (k : Fin ((⟨3, ![a, b, c]⟩ : Shape).size 1)) : h.lift (ix2 p q) k = ix3 p (⟨k.val, k.isLt⟩ : Fin b) q := by
  funext d; apply Fin.ext
  fin_cases d <;> rfl

/-! ## The reductions at the ideal instance -/

section Reductions
variable {φ : FTy}

/-- The sum of a stack over its middle axis is, at `(p, q)`, the sum over `n` of the entries `(p, n, q)`. -/
theorem sumMid_apply {a b c : ℕ} (v : FVec Ideal ⟨3, ![a, b, c]⟩ φ) (acc : BitVec φ.bits)
    (h : (⟨3, ![a, b, c]⟩ : Shape).Reduces [1] (⟨2, ![a, c]⟩ : Shape)) (hφ : FKind.Formats φ)
    (hacc : acc = FKind.add.neutral φ hφ) (p : Fin a) (q : Fin c) :
    multiReduction .add [1] ⟨2, ![a, c]⟩ v acc h hφ hacc (ix2 p q) = ∑ n : Fin b, v (ix3 p n q) :=
  (Ideal.multiReduction_add_single v acc h hφ hacc (ix2 p q)).trans
    (Finset.sum_congr rfl fun k _ => congrArg v (lift_mid h p q k))

/-- The maximum of a stack over its middle axis is, at `(p, q)`, the fold of `max` over `n` of the entries
    `(p, n, q)`, from the accumulator's value. -/
theorem maxMid_apply {a b c : ℕ} (v : FVec Ideal ⟨3, ![a, b, c]⟩ φ) (acc : BitVec φ.bits)
    (h : (⟨3, ![a, b, c]⟩ : Shape).Reduces [1] (⟨2, ![a, c]⟩ : Shape)) (hφ : FKind.Formats φ)
    (hacc : acc = FKind.maximumf.neutral φ hφ) (p : Fin a) (q : Fin c) :
    multiReduction .maximumf [1] ⟨2, ![a, c]⟩ v acc h hφ hacc (ix2 p q)
      = (Finset.univ : Finset (Fin b)).fold max (Ideal.ofBits φ acc) (fun n => v (ix3 p n q)) :=
  (Ideal.multiReduction_maximumf_single v acc h hφ hacc (ix2 p q)).trans
    (congrArg (fun f => (Finset.univ : Finset (Fin b)).fold max (Ideal.ofBits φ acc) f)
      (funext fun k => congrArg v (lift_mid h p q k)))

end Reductions

end Cert.LibStack

end
-- ==== Proof.KernelBody.lean ====
/-
  The kernel's body on one block of sixteen batch elements, read at an index.

  The body loads the block `x0` of sixteen feature matrices, the transposed projection `w3` (entry `(h, k)` is
  `W k h`) and the bias as a one-row matrix `v7`, and stores one `[16, 256]` value. Batch element `p` of the block
  is the matrix `X p n h = x0 (p, n, h)`. Stage by stage the body computes, for every `p`:
  the projected features `att` (one tall product over all sixteen matrices laid end to end, plus the bias row);
  the scores (a batched product contracting the feature axis); the column maxima, the weights `exp (score − max)`
  and their column sums (reductions over the middle axis); the row sums of the features weighted by the weights (a
  batched product with a single row on the left); and the quotient. Entry `(p, q)` of the stored value is batch
  element `p` pooled the short way at column `q`.
-/
import proofs.«405729_j22308060136280_3_alg».proof.Proof.Gen.KernelIdeal.Skeleton
import proofs.«405729_j22308060136280_3_alg».proof.Proof.Pooling
import proofs.«405729_j22308060136280_3_alg».proof.Proof.LibStack
import Idealize.ShloMosaic.Lib.ValueLayout
import Idealize.ShloMosaic.Lib.ValueIdx
import Idealize.ShloMosaic.Lib.Pipeline.Value
import Idealize.ShloMosaic.PureOps.Ideal.Laws

noncomputable section

open scoped BigOperators

namespace Cert.KernelIdeal.Body

open Cert.KernelIdeal Cert.KernelIdeal.Gen Idealize.ShloMosaic Idealize.ShloMosaic.ValueIdx Cert.Pool Cert.LibStack

/-! ## The three products, read at coordinates -/

/-! ### The tall product `[4096, 256] × [256, 256]`: entry `(r, c)` is `∑ k, l (r, k) · m (k, c)` -/

theorem proj_lhs_0 (i : S4096x256.Idx) (q : dot_S4096x256_S256x256_S4096x256_1_0_0_1_n_n.contr.Idx) :
    (dot_S4096x256_S256x256_S4096x256_1_0_0_1_n_n.lhsIdx i q 0).val = (i 0).val := by
  unfold DotDims.lhsIdx
  rw [dif_neg (show ¬(0 : Fin S4096x256.rank) ∈ dot_S4096x256_S256x256_S4096x256_1_0_0_1_n_n.lhsBatch by decide), dif_pos (show (0 : Fin S4096x256.rank) ∈ dot_S4096x256_S256x256_S4096x256_1_0_0_1_n_n.lhsNonContracting by decide)]
  rfl
theorem proj_lhs_1 (i : S4096x256.Idx) (q : dot_S4096x256_S256x256_S4096x256_1_0_0_1_n_n.contr.Idx) :
    (dot_S4096x256_S256x256_S4096x256_1_0_0_1_n_n.lhsIdx i q 1).val = (q ⟨0, by decide⟩).val :=
  dot_S4096x256_S256x256_S4096x256_1_0_0_1_n_n.lhsIdx_val_of_single rfl i q
theorem proj_rhs_0 (i : S4096x256.Idx) (q : dot_S4096x256_S256x256_S4096x256_1_0_0_1_n_n.contr.Idx) :
    (dot_S4096x256_S256x256_S4096x256_1_0_0_1_n_n.rhsIdx i q 0).val = (q ⟨0, by decide⟩).val :=
  dot_S4096x256_S256x256_S4096x256_1_0_0_1_n_n.rhsIdx_val_of_single rfl i q
theorem proj_rhs_1 (i : S4096x256.Idx) (q : dot_S4096x256_S256x256_S4096x256_1_0_0_1_n_n.contr.Idx) :
    (dot_S4096x256_S256x256_S4096x256_1_0_0_1_n_n.rhsIdx i q 1).val = (i 1).val := by
  unfold DotDims.rhsIdx
  rw [dif_neg (show ¬(1 : Fin S256x256.rank) ∈ dot_S4096x256_S256x256_S4096x256_1_0_0_1_n_n.rhsBatch by decide), dif_pos (show (1 : Fin S256x256.rank) ∈ dot_S4096x256_S256x256_S4096x256_1_0_0_1_n_n.rhsNonContracting by decide)]
  rfl

theorem proj_apply (l : FVec Ideal S4096x256 .bf16) (m : FVec Ideal S256x256 .bf16) (r : Fin 4096) (c : Fin 256) :
    matmul dot_S4096x256_S256x256_S4096x256_1_0_0_1_n_n none l m (constant S4096x256 .f32 0x00000000#32) (ix2 r c)
      = ∑ k : Fin 256, l (ix2 r k) * m (ix2 k c) := by
  simp only [matmul]
  rw [Ideal.matmul_constant_zero_apply, ← Equiv.sum_comp (contrEquiv1 dot_S4096x256_S256x256_S4096x256_1_0_0_1_n_n 256 rfl rfl).symm]
  refine Finset.sum_congr rfl fun k _ => ?_
  have hk := contrEquiv1_symm_val dot_S4096x256_S256x256_S4096x256_1_0_0_1_n_n 256 rfl rfl k
  have el : dot_S4096x256_S256x256_S4096x256_1_0_0_1_n_n.lhsIdx (ix2 r c) ((contrEquiv1 dot_S4096x256_S256x256_S4096x256_1_0_0_1_n_n 256 rfl rfl).symm k) = ix2 r k := funext fun a => Fin.ext (by
    match a with
    | ⟨0, _⟩ => exact proj_lhs_0 _ _
    | ⟨1, _⟩ => exact (proj_lhs_1 _ _).trans hk)
  have er : dot_S4096x256_S256x256_S4096x256_1_0_0_1_n_n.rhsIdx (ix2 r c) ((contrEquiv1 dot_S4096x256_S256x256_S4096x256_1_0_0_1_n_n 256 rfl rfl).symm k) = ix2 k c := funext fun a => Fin.ext (by
    match a with
    | ⟨0, _⟩ => exact (proj_rhs_0 _ _).trans hk
    | ⟨1, _⟩ => exact proj_rhs_1 _ _)
  rw [el, er]

/-! ### The batched product contracting the last axes: entry `(p, n, q)` is `∑ h, l (p, n, h) · m (p, q, h)` -/

theorem score_lhs_0 (i : S16x256x256.Idx) (q : dot_S16x256x256_S16x256x256_S16x256x256_2_2_1_1_0_0.contr.Idx) :
    (dot_S16x256x256_S16x256x256_S16x256x256_2_2_1_1_0_0.lhsIdx i q 0).val = (i 0).val := by
  unfold DotDims.lhsIdx
  rw [dif_pos (show (0 : Fin S16x256x256.rank) ∈ dot_S16x256x256_S16x256x256_S16x256x256_2_2_1_1_0_0.lhsBatch by decide)]
  rfl
theorem score_lhs_1 (i : S16x256x256.Idx) (q : dot_S16x256x256_S16x256x256_S16x256x256_2_2_1_1_0_0.contr.Idx) :
    (dot_S16x256x256_S16x256x256_S16x256x256_2_2_1_1_0_0.lhsIdx i q 1).val = (i 1).val := by
  unfold DotDims.lhsIdx
  rw [dif_neg (show ¬(1 : Fin S16x256x256.rank) ∈ dot_S16x256x256_S16x256x256_S16x256x256_2_2_1_1_0_0.lhsBatch by decide), dif_pos (show (1 : Fin S16x256x256.rank) ∈ dot_S16x256x256_S16x256x256_S16x256x256_2_2_1_1_0_0.lhsNonContracting by decide)]
  rfl
theorem score_lhs_2 (i : S16x256x256.Idx) (q : dot_S16x256x256_S16x256x256_S16x256x256_2_2_1_1_0_0.contr.Idx) :
    (dot_S16x256x256_S16x256x256_S16x256x256_2_2_1_1_0_0.lhsIdx i q 2).val = (q ⟨0, by decide⟩).val :=
  dot_S16x256x256_S16x256x256_S16x256x256_2_2_1_1_0_0.lhsIdx_val_of_single rfl i q
theorem score_rhs_0 (i : S16x256x256.Idx) (q : dot_S16x256x256_S16x256x256_S16x256x256_2_2_1_1_0_0.contr.Idx) :
    (dot_S16x256x256_S16x256x256_S16x256x256_2_2_1_1_0_0.rhsIdx i q 0).val = (i 0).val := by
  unfold DotDims.rhsIdx
  rw [dif_pos (show (0 : Fin S16x256x256.rank) ∈ dot_S16x256x256_S16x256x256_S16x256x256_2_2_1_1_0_0.rhsBatch by decide)]
  rfl
theorem score_rhs_1 (i : S16x256x256.Idx) (q : dot_S16x256x256_S16x256x256_S16x256x256_2_2_1_1_0_0.contr.Idx) :
    (dot_S16x256x256_S16x256x256_S16x256x256_2_2_1_1_0_0.rhsIdx i q 1).val = (i 2).val := by
  unfold DotDims.rhsIdx
  rw [dif_neg (show ¬(1 : Fin S16x256x256.rank) ∈ dot_S16x256x256_S16x256x256_S16x256x256_2_2_1_1_0_0.rhsBatch by decide), dif_pos (show (1 : Fin S16x256x256.rank) ∈ dot_S16x256x256_S16x256x256_S16x256x256_2_2_1_1_0_0.rhsNonContracting by decide)]
  rfl
theorem score_rhs_2 (i : S16x256x256.Idx) (q : dot_S16x256x256_S16x256x256_S16x256x256_2_2_1_1_0_0.contr.Idx) :
    (dot_S16x256x256_S16x256x256_S16x256x256_2_2_1_1_0_0.rhsIdx i q 2).val = (q ⟨0, by decide⟩).val :=
  dot_S16x256x256_S16x256x256_S16x256x256_2_2_1_1_0_0.rhsIdx_val_of_single rfl i q

theorem scoreProd_apply (l m : FVec Ideal S16x256x256 .bf16) (p : Fin 16) (n q : Fin 256) :
    matmul dot_S16x256x256_S16x256x256_S16x256x256_2_2_1_1_0_0 none l m (constant S16x256x256 .f32 0x00000000#32) (ix3 p n q)
      = ∑ h : Fin 256, l (ix3 p n h) * m (ix3 p q h) := by
  simp only [matmul]
  rw [Ideal.matmul_constant_zero_apply, ← Equiv.sum_comp (contrEquiv1 dot_S16x256x256_S16x256x256_S16x256x256_2_2_1_1_0_0 256 rfl rfl).symm]
  refine Finset.sum_congr rfl fun k _ => ?_
  have hk := contrEquiv1_symm_val dot_S16x256x256_S16x256x256_S16x256x256_2_2_1_1_0_0 256 rfl rfl k
  have el : dot_S16x256x256_S16x256x256_S16x256x256_2_2_1_1_0_0.lhsIdx (ix3 p n q) ((contrEquiv1 dot_S16x256x256_S16x256x256_S16x256x256_2_2_1_1_0_0 256 rfl rfl).symm k) = ix3 p n k := funext fun a => Fin.ext (by
    match a with
    | ⟨0, _⟩ => exact score_lhs_0 _ _
    | ⟨1, _⟩ => exact score_lhs_1 _ _
    | ⟨2, _⟩ => exact (score_lhs_2 _ _).trans hk)
  have er : dot_S16x256x256_S16x256x256_S16x256x256_2_2_1_1_0_0.rhsIdx (ix3 p n q) ((contrEquiv1 dot_S16x256x256_S16x256x256_S16x256x256_2_2_1_1_0_0 256 rfl rfl).symm k) = ix3 p q k := funext fun a => Fin.ext (by
    match a with
    | ⟨0, _⟩ => exact score_rhs_0 _ _
    | ⟨1, _⟩ => exact score_rhs_1 _ _
    | ⟨2, _⟩ => exact (score_rhs_2 _ _).trans hk)
  rw [el, er]

/-! ### The batched product with one row on the left: entry `(p, u, q)` is `∑ k, l (p, u, k) · m (p, k, q)` -/

theorem pool_lhs_0 (i : S16x1x256.Idx) (q : dot_S16x1x256_S16x256x256_S16x1x256_2_1_1_2_0_0.contr.Idx) :
    (dot_S16x1x256_S16x256x256_S16x1x256_2_1_1_2_0_0.lhsIdx i q 0).val = (i 0).val := by
  unfold DotDims.lhsIdx
  rw [dif_pos (show (0 : Fin S16x1x256.rank) ∈ dot_S16x1x256_S16x256x256_S16x1x256_2_1_1_2_0_0.lhsBatch by decide)]
  rfl
theorem pool_lhs_1 (i : S16x1x256.Idx) (q : dot_S16x1x256_S16x256x256_S16x1x256_2_1_1_2_0_0.contr.Idx) :
    (dot_S16x1x256_S16x256x256_S16x1x256_2_1_1_2_0_0.lhsIdx i q 1).val = (i 1).val := by
  unfold DotDims.lhsIdx
  rw [dif_neg (show ¬(1 : Fin S16x1x256.rank) ∈ dot_S16x1x256_S16x256x256_S16x1x256_2_1_1_2_0_0.lhsBatch by decide), dif_pos (show (1 : Fin S16x1x256.rank) ∈ dot_S16x1x256_S16x256x256_S16x1x256_2_1_1_2_0_0.lhsNonContracting by decide)]
  rfl
theorem pool_lhs_2 (i : S16x1x256.Idx) (q : dot_S16x1x256_S16x256x256_S16x1x256_2_1_1_2_0_0.contr.Idx) :
    (dot_S16x1x256_S16x256x256_S16x1x256_2_1_1_2_0_0.lhsIdx i q 2).val = (q ⟨0, by decide⟩).val :=
  dot_S16x1x256_S16x256x256_S16x1x256_2_1_1_2_0_0.lhsIdx_val_of_single rfl i q
theorem pool_rhs_0 (i : S16x1x256.Idx) (q : dot_S16x1x256_S16x256x256_S16x1x256_2_1_1_2_0_0.contr.Idx) :
    (dot_S16x1x256_S16x256x256_S16x1x256_2_1_1_2_0_0.rhsIdx i q 0).val = (i 0).val := by
  unfold DotDims.rhsIdx
  rw [dif_pos (show (0 : Fin S16x256x256.rank) ∈ dot_S16x1x256_S16x256x256_S16x1x256_2_1_1_2_0_0.rhsBatch by decide)]
  rfl
theorem pool_rhs_1 (i : S16x1x256.Idx) (q : dot_S16x1x256_S16x256x256_S16x1x256_2_1_1_2_0_0.contr.Idx) :
    (dot_S16x1x256_S16x256x256_S16x1x256_2_1_1_2_0_0.rhsIdx i q 1).val = (q ⟨0, by decide⟩).val :=
  dot_S16x1x256_S16x256x256_S16x1x256_2_1_1_2_0_0.rhsIdx_val_of_single rfl i q
theorem pool_rhs_2 (i : S16x1x256.Idx) (q : dot_S16x1x256_S16x256x256_S16x1x256_2_1_1_2_0_0.contr.Idx) :
    (dot_S16x1x256_S16x256x256_S16x1x256_2_1_1_2_0_0.rhsIdx i q 2).val = (i 2).val := by
  unfold DotDims.rhsIdx
  rw [dif_neg (show ¬(2 : Fin S16x256x256.rank) ∈ dot_S16x1x256_S16x256x256_S16x1x256_2_1_1_2_0_0.rhsBatch by decide), dif_pos (show (2 : Fin S16x256x256.rank) ∈ dot_S16x1x256_S16x256x256_S16x1x256_2_1_1_2_0_0.rhsNonContracting by decide)]
  rfl

theorem poolProd_apply (l : FVec Ideal S16x1x256 .bf16) (m : FVec Ideal S16x256x256 .bf16) (p : Fin 16) (u : Fin 1) (q : Fin 256) :
    matmul dot_S16x1x256_S16x256x256_S16x1x256_2_1_1_2_0_0 none l m (constant S16x1x256 .f32 0x00000000#32) (ix3 p u q)
      = ∑ k : Fin 256, l (ix3 p u k) * m (ix3 p k q) := by
  simp only [matmul]
  rw [Ideal.matmul_constant_zero_apply, ← Equiv.sum_comp (contrEquiv1 dot_S16x1x256_S16x256x256_S16x1x256_2_1_1_2_0_0 256 rfl rfl).symm]
  refine Finset.sum_congr rfl fun k _ => ?_
  have hk := contrEquiv1_symm_val dot_S16x1x256_S16x256x256_S16x1x256_2_1_1_2_0_0 256 rfl rfl k
  have el : dot_S16x1x256_S16x256x256_S16x1x256_2_1_1_2_0_0.lhsIdx (ix3 p u q) ((contrEquiv1 dot_S16x1x256_S16x256x256_S16x1x256_2_1_1_2_0_0 256 rfl rfl).symm k) = ix3 p u k := funext fun a => Fin.ext (by
    match a with
    | ⟨0, _⟩ => exact pool_lhs_0 _ _
    | ⟨1, _⟩ => exact pool_lhs_1 _ _
    | ⟨2, _⟩ => exact (pool_lhs_2 _ _).trans hk)
  have er : dot_S16x1x256_S16x256x256_S16x1x256_2_1_1_2_0_0.rhsIdx (ix3 p u q) ((contrEquiv1 dot_S16x1x256_S16x256x256_S16x1x256_2_1_1_2_0_0 256 rfl rfl).symm k) = ix3 p k q := funext fun a => Fin.ext (by
    match a with
    | ⟨0, _⟩ => exact pool_rhs_0 _ _
    | ⟨1, _⟩ => exact (pool_rhs_1 _ _).trans hk
    | ⟨2, _⟩ => exact pool_rhs_2 _ _)
  rw [el, er]

/-! ## The body's stages -/

section Stages
variable (x0 : FVec Ideal S16x256x256 .f32) (w3 : FVec Ideal S256x256 .bf16) (v7 : FVec Ideal S1x256 .f32)

/-- Batch element `p` of the block as a matrix; the transposed projection read back as `W`; the one-row bias as a row. -/
def blockMat (p : Fin 16) : Mat := fun n h => x0 (ix3 p n h)
def projMat : Mat := fun k h => w3 (ix2 h k)
def biasRow : Row := fun k => v7 (ix2 (0 : Fin 1) k)

/-- The projected features of all sixteen matrices, their rows end to end: one tall product plus the bias row. -/
def attFlat : FVec Ideal S4096x256 .f32 :=
  addf (matmul dot_S4096x256_S256x256_S4096x256_1_0_0_1_n_n none (shapeCast S4096x256 (truncf .bf16 x0 bitsLt_bf16_f32) shapeCasts_S16x256x256_S4096x256)
      (shapeCast S256x256 w3 shapeCasts_S256x256_S256x256) (constant S4096x256 .f32 0x00000000#32))
    (broadcastTo S4096x256 (shapeCast S1x256 v7 shapeCasts_S1x256_S1x256) broadcasts_S1x256_S4096x256)

/-- The scores of the sixteen matrices. -/
def scores : FVec Ideal S16x256x256 .f32 :=
  matmul dot_S16x256x256_S16x256x256_S16x256x256_2_2_1_1_0_0 none
    (truncf .bf16 (shapeCast S16x256x256 (attFlat x0 w3 v7) shapeCasts_S4096x256_S16x256x256) bitsLt_bf16_f32)
    (truncf .bf16 x0 bitsLt_bf16_f32) (constant S16x256x256 .f32 0x00000000#32)

/-- The unnormalised softmax weights: the exponential of each score less its column's maximum. -/
def weights : FVec Ideal S16x256x256 .f32 :=
  exp (subf (scores x0 w3 v7)
    (broadcastTo S16x256x256
      (shapeCast S16x1x256
        (multiReduction .maximumf [1] S16x256 (scores x0 w3 v7) 0xFF800000#32 reduces_S16x256x256_S16x256 (.inl rfl) rfl)
        shapeCasts_S16x256_S16x1x256)
      broadcasts_S16x1x256_S16x256x256))

/-- The stored value is the quotient of the weighted row sums by the weights' column sums. -/
theorem pay_eq : k0_pay1 (F := Ideal) x0 w3 v7
    = divf
        (shapeCast S16x256
          (matmul dot_S16x1x256_S16x256x256_S16x1x256_2_1_1_2_0_0 none
            (shapeCast S16x1x256
              (truncf .bf16 (multiReduction .add [1] S16x256 x0 0x00000000#32 reduces_S16x256x256_S16x256 (.inl rfl) rfl) bitsLt_bf16_f32)
              shapeCasts_S16x256_S16x1x256)
            (truncf .bf16 (weights x0 w3 v7) bitsLt_bf16_f32) (constant S16x1x256 .f32 0x00000000#32))
          shapeCasts_S16x1x256_S16x256)
        (shapeCast S16x256
          (shapeCast S16x1x256
            (multiReduction .add [1] S16x256 (weights x0 w3 v7) 0x00000000#32 reduces_S16x256x256_S16x256 (.inl rfl) rfl)
            shapeCasts_S16x256_S16x1x256)
          shapeCasts_S16x1x256_S16x256) := rfl

/-- Row `n` of matrix `p` is row `p · 256 + n` of the tall matrix. -/
theorem row_lt (p : Fin 16) (n : Fin 256) : p.val * 256 + n.val < 4096 := by
  have := p.isLt; have := n.isLt; omega

/-- The tall matrix of projected features, at row `n` of matrix `p`, is `att` of that matrix. -/
theorem attFlat_apply (p : Fin 16) (n k : Fin 256) :
    attFlat x0 w3 v7 (ix2 (⟨p.val * 256 + n.val, row_lt p n⟩ : Fin 4096) k)
      = att (blockMat x0 p) (projMat w3) (biasRow v7) n k := by
  unfold attFlat att
  refine congrArg₂ (· + ·) ?_ ?_
  · refine (proj_apply _ _ _ k).trans (Finset.sum_congr rfl fun h _ => ?_)
    exact congrArg₂ (· * ·) (flatten_apply (truncf .bf16 x0 bitsLt_bf16_f32) shapeCasts_S16x256x256_S4096x256 p n h (row_lt p n))
      (congrFun (shapeCast_self w3 shapeCasts_S256x256_S256x256) (ix2 h k))
  · exact (broadcastTo_1b_ab_apply _ broadcasts_S1x256_S4096x256 _ k).trans
      (congrFun (shapeCast_self v7 shapeCasts_S1x256_S1x256) (ix2 (0 : Fin 1) k))

/-- The scores of matrix `p`. -/
theorem scores_apply (p : Fin 16) (n q : Fin 256) :
    scores x0 w3 v7 (ix3 p n q) = score (blockMat x0 p) (projMat w3) (biasRow v7) n q := by
  unfold scores score
  refine (scoreProd_apply _ _ p n q).trans (Finset.sum_congr rfl fun h _ => ?_)
  exact congrArg₂ (· * ·)
    ((unflatten_apply (attFlat x0 w3 v7) shapeCasts_S4096x256_S16x256x256 p n h (row_lt p n)).trans (attFlat_apply x0 w3 v7 p n h))
    rfl

/-- The weights of matrix `p`. -/
theorem weights_apply (p : Fin 16) (n q : Fin 256) :
    weights x0 w3 v7 (ix3 p n q) = wexp (blockMat x0 p) (projMat w3) (biasRow v7) n q := by
  unfold weights wexp
  refine congrArg Ideal.exp (congrArg₂ (· - ·) (scores_apply x0 w3 v7 p n q) ?_)
  refine (spreadMid_apply _ broadcasts_S16x1x256_S16x256x256 p n q).trans ?_
  refine (addMid_apply _ shapeCasts_S16x256_S16x1x256 p (0 : Fin 1) q).trans ?_
  refine (maxMid_apply (scores x0 w3 v7) _ reduces_S16x256x256_S16x256 _ _ p q).trans ?_
  rw [negInf_eq_bot]
  unfold colMax
  exact congrArg (fun f => (Finset.univ : Finset (Fin 256)).fold max (⊥ : EReal) f)
    (funext fun n' => scores_apply x0 w3 v7 p n' q)

/-- Entry `(p, q)` of the stored value is matrix `p` pooled the short way at column `q`. -/
theorem pay_apply (p : Fin 16) (q : Fin 256) :
    k0_pay1 (F := Ideal) x0 w3 v7 (ix2 p q) = pooledShort (blockMat x0 p) (projMat w3) (biasRow v7) q := by
  rw [pay_eq]
  unfold pooledShort colSum
  refine congrArg₂ Ideal.div ?_ ?_
  · refine (dropMid_apply _ shapeCasts_S16x1x256_S16x256 p q).trans ?_
    refine (poolProd_apply _ _ p (0 : Fin 1) q).trans (Finset.sum_congr rfl fun k _ => ?_)
    refine congrArg₂ (· * ·) ?_ (weights_apply x0 w3 v7 p k q)
    refine (addMid_apply _ shapeCasts_S16x256_S16x1x256 p (0 : Fin 1) k).trans ?_
    exact sumMid_apply x0 0x00000000#32 reduces_S16x256x256_S16x256 (.inl rfl) rfl p k
  · refine (dropMid_apply _ shapeCasts_S16x1x256_S16x256 p q).trans ?_
    refine (addMid_apply _ shapeCasts_S16x256_S16x1x256 p (0 : Fin 1) q).trans ?_
    refine (sumMid_apply (weights x0 w3 v7) _ reduces_S16x256x256_S16x256 _ _ p q).trans ?_
    exact Finset.sum_congr rfl fun n _ => weights_apply x0 w3 v7 p n q

end Stages

end Cert.KernelIdeal.Body

end
-- ==== Proof.KernelArray.lean ====
/-
  From blocks to the array: what the kernel's result array holds after the run.

  The grid has 32 points. Point `t` stages batch elements `16 t … 16 t + 15` of the features, the whole transposed
  projection and the whole bias row, and writes back rows `16 t … 16 t + 15` of the `[512, 256]` result. The
  projection the body sees is the host's transpose of the argument, so entry `(h, k)` of it is `W k h`; the bias
  row is the argument recast as one row. Entry `(p, q)` of what point `t` writes is therefore batch element
  `16 t + p` pooled the short way at column `q`: block `t` of the array `pooled x W β`. The 32 blocks tile the
  array (row `r` lies in block `r / 16`), so the array ends holding `pooled x W β`.
-/
import proofs.«405729_j22308060136280_3_alg».proof.Proof.Gen.KernelIdeal.Value
import proofs.«405729_j22308060136280_3_alg».proof.Proof.KernelBody
import Idealize.ShloMosaic.Lib.Pipeline.Value
import Idealize.ShloMosaic.Lib.StableHlo.Run
import Idealize.ShloMosaic.Lib.ValueLayout

noncomputable section

open Idealize.ShloMosaic Idealize.ShloMosaic.TcCoe Idealize.SL.Sem Idealize.ShloMosaic.ValueIdx
open Idealize.ShloMosaic.Pipeline (Dat)

namespace Cert.KernelIdeal.Result

open Cert.KernelIdeal Cert.KernelIdeal.Gen Cert.KernelIdeal.Value Cert.KernelIdeal.Body Cert.Pool

variable (m : (ℓ : Loc nD τ sig) → Buf (Elt Ideal) ℓ) (ρ : Dev nD → PrngReg)

theorem hz2 : (![0, 0] : Fin 2 → Nat) = fun _ => 0 := funext fun a => by fin_cases a <;> rfl
theorem hz3 : (![0, 0, 0] : Fin 3 → Nat) = fun _ => 0 := funext fun a => by fin_cases a <;> rfl

/-- The three argument arrays of core `c`. -/
abbrev feats (c : Dev nD) : FVec Ideal S512x256x256 .f32 := m ((c : Thread nD τ).loc main_arg0)
abbrev proj (c : Dev nD) : FVec Ideal S256x256 .f32 := m ((c : Thread nD τ).loc main_arg1)
abbrev bias (c : Dev nD) : FVec Ideal S256 .f32 := m ((c : Thread nD τ).loc main_arg2)

/-! ## The arrays the region finds -/

/-- The projection the region finds is the argument transposed (the change of format is the identity). -/
theorem V_proj (c : Dev nD) : (V m c main_v1 : S256x256.Idx → EReal)
    = truncf .bf16 (transpose S256x256 [1, 0] (proj m c) transposes_S256x256_S256x256_1_0) bitsLt_bf16_f32 := by
  dsimp only [Gen.V, Gen.hostOps0]
  after_results

/-- The bias the region finds is the argument recast as one row. -/
theorem V_bias (c : Dev nD) : (V m c main_v2 : S1x256.Idx → EReal)
    = shapeCast S1x256 (bias m c) shapeCasts_S256_S1x256 := by
  dsimp only [Gen.V, Gen.hostOps0]
  after_results
  rfl

/-! ## The index maps, decided over the grid -/

theorem idx_facts : ∀ t : Fin cfg0.N,
    win0_0.index t (0 : Fin 3) = t.val ∧ win0_0.index t (1 : Fin 3) = 0 ∧ win0_0.index t (2 : Fin 3) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

theorem point_lt (t : Fin cfg0.N) : t.val < 32 := lt_of_lt_of_eq t.isLt N_0

/-- Batch element `p` of block `t` is batch element `16 t + p` of the array. -/
theorem batch_lt (t : Fin cfg0.N) (p : Fin 16) : 16 * t.val + p.val < 512 := by
  have := point_lt t; have := p.isLt; omega

/-! ## The input blocks at a point, as matrices -/

theorem blockMat_iblk (c : Dev nD) (t : Fin cfg0.N) (p : Fin 16) :
    blockMat (iblk m c 0 t) p = slab (feats m c) (⟨16 * t.val + p.val, batch_lt t p⟩ : Fin 512) := by
  obtain ⟨e0, e1, e2, -⟩ := idx_facts t
  funext n h
  unfold blockMat slab iblk
  rw [View.read_apply]
  show V m c main_arg0 _ = feats m c _
  rw [V_main_arg0]
  refine congrArg (feats m c) (funext fun a => Fin.ext ?_)
  match a with
  | ⟨0, _⟩ => show win0_0.index t (0 : Fin 3) * 16 + 1 * p.val = 16 * t.val + p.val; rw [e0]; omega
  | ⟨1, _⟩ => show win0_0.index t (1 : Fin 3) * 256 + 1 * n.val = n.val; rw [e1]; omega
  | ⟨2, _⟩ => show win0_0.index t (2 : Fin 3) * 256 + 1 * h.val = h.val; rw [e2]; omega

theorem projMat_iblk (c : Dev nD) (t : Fin cfg0.N) : projMat (iblk m c 1 t) = asMat (proj m c) := by
  obtain ⟨-, -, -, e0, e1, -⟩ := idx_facts t
  funext k h
  unfold projMat asMat iblk
  rw [View.read_apply]
  show V m c main_v1 _ = proj m c _
  rw [V_proj]
  have he : ((cfg0.win 1).blk t).view.emb (ix2 h k) = ix2 h k := funext fun a => Fin.ext (by
    match a with
    | ⟨0, _⟩ => show win0_1.index t (0 : Fin 2) * 256 + 1 * h.val = h.val; rw [e0]; omega
    | ⟨1, _⟩ => show win0_1.index t (1 : Fin 2) * 256 + 1 * k.val = k.val; rw [e1]; omega)
  rw [he]
  exact transpose_ix2_apply (proj m c) transposes_S256x256_S256x256_1_0 h k

theorem biasRow_iblk (c : Dev nD) (t : Fin cfg0.N) : biasRow (iblk m c 2 t) = asRow (bias m c) := by
  obtain ⟨-, -, -, -, -, e0, e1, -⟩ := idx_facts t
  funext k
  unfold biasRow asRow iblk
  rw [View.read_apply]
  show V m c main_v2 _ = bias m c _
  rw [V_bias]
  have he : ((cfg0.win 2).blk t).view.emb (ix2 (0 : Fin 1) k) = ix2 (0 : Fin 1) k := funext fun a => Fin.ext (by
    match a with
    | ⟨0, _⟩ => show win0_2.index t (0 : Fin 2) * 1 + 1 * 0 = 0; rw [e0]
    | ⟨1, _⟩ => show win0_2.index t (1 : Fin 2) * 256 + 1 * k.val = k.val; rw [e1]; omega)
  rw [he]
  exact shapeCast_a_1a_apply (bias m c) shapeCasts_S256_S1x256 (0 : Fin 1) k

/-! ## What a point writes back, the cover, and the array after the run -/

/-- Point `t` writes back block `t` of the pooled array. -/
theorem flushed_eq (c : Dev nD) (t : Fin cfg0.N) :
    (dats m 0 c).flushed 3 t
      = ((cfg0.win 3).blk t).view.read (Elt Ideal) (pooled (feats m c) (proj m c) (bias m c)) := by
  rw [Value.flushed3]
  unfold out0_3
  rw [View.canon_unit_zero hz2]
  simp only [View.ld_unit_zero (S := S16x256x256) hz3, View.ld_unit_zero (S := S256x256) hz2, View.ld_unit_zero (S := S1x256) hz2]
  obtain ⟨-, -, -, -, -, -, -, e0, e1⟩ := idx_facts t
  funext j
  obtain ⟨p, q, rfl⟩ : ∃ (p : Fin 16) (q : Fin 256), j = ix2 p q := ⟨j 0, j 1, eq_ix2 j⟩
  show k0_pay1 (F := Ideal) (iblk m c 0 t) (iblk m c 1 t) (iblk m c 2 t) (ix2 p q)
    = pooled (feats m c) (proj m c) (bias m c) (((cfg0.win 3).blk t).view.emb (ix2 p q))
  have he : ((cfg0.win 3).blk t).view.emb (ix2 p q) = ix2 (⟨16 * t.val + p.val, batch_lt t p⟩ : Fin 512) q :=
    funext fun a => Fin.ext (by
      match a with
      | ⟨0, _⟩ => show win0_3.index t (0 : Fin 2) * 16 + 1 * p.val = 16 * t.val + p.val; rw [e0]; omega
      | ⟨1, _⟩ => show win0_3.index t (1 : Fin 2) * 256 + 1 * q.val = q.val; rw [e1]; omega)
  rw [he, pooled_ix2]
  refine (pay_apply (iblk m c 0 t) (iblk m c 1 t) (iblk m c 2 t) p q).trans ?_
  rw [blockMat_iblk, projMat_iblk, biasRow_iblk]

/-- An index of the array is in point `t`'s block iff each coordinate is in the block's range on its axis. -/
theorem mem_blk (t : Fin cfg0.N) (i : S512x256.Idx) :
    i ∈ ((cfg0.win 3).blk t).view.set ↔ ∀ a : Fin 2, win0_3.index t a * S16x256.size a ≤ (i a).val ∧ (i a).val < win0_3.index t a * S16x256.size a + S16x256.size a := by
  show i ∈ ((View.whole main_v3).slice (win0_3.rect t)).set ↔ _
  rw [View.set_slice_whole, Rect.mem_set_unit]
  exact Iff.rfl

/-- Row `r` of the array lies in block `r / 16`. -/
theorem cover (i : S512x256.Idx) : ∃ t : Fin cfg0.N, (cfg0.win 3).flush t = true ∧ i ∈ ((cfg0.win 3).blk t).view.set := by
  have hi0 : (i 0).val < 512 := (i 0).isLt
  have hi1 : (i 1).val < 256 := (i 1).isLt
  have hN : (i 0).val / 16 < cfg0.N := by rw [show cfg0.N = 32 from N_0]; omega
  refine ⟨⟨(i 0).val / 16, hN⟩, flush0_3 _, ?_⟩
  obtain ⟨-, -, -, -, -, -, -, e0, e1⟩ := idx_facts ⟨(i 0).val / 16, hN⟩
  rw [mem_blk]
  intro a
  match a with
  | ⟨0, _⟩ =>
    show win0_3.index ⟨(i 0).val / 16, hN⟩ (0 : Fin 2) * 16 ≤ (i 0).val ∧ (i 0).val < win0_3.index ⟨(i 0).val / 16, hN⟩ (0 : Fin 2) * 16 + 16
    rw [e0]; show (i 0).val / 16 * 16 ≤ (i 0).val ∧ (i 0).val < (i 0).val / 16 * 16 + 16; omega
  | ⟨1, _⟩ =>
    show win0_3.index ⟨(i 0).val / 16, hN⟩ (1 : Fin 2) * 256 ≤ (i 1).val ∧ (i 1).val < win0_3.index ⟨(i 0).val / 16, hN⟩ (1 : Fin 2) * 256 + 256
    rw [e1]; omega

/-- The result array after the run is the pooled array of the three arguments. -/
theorem final (c : Dev nD) : (dats m 0 c).arrAt 3 cfg0.N = pooled (feats m c) (proj m c) (bias m c) :=
  (dats m 0 c).arrAt_eq_of_cover 3 (pooled (feats m c) (proj m c) (bias m c)) (fun t _ => flushed_eq m c t) (cover)

/-- The run, read: the result array at the pooled array of the arguments, the arguments unchanged. -/
theorem run : θ_run defs (onTc (τ := τ) (main (F := Ideal))) ⟨m, fun _ => 0, ρ⟩ fun r => ∀ c : Dev nD,
      r.2.mem ((c : Thread nD τ).loc main_v3) = pooled (feats m c) (proj m c) (bias m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (Value.run_blocks m ρ)

end Cert.KernelIdeal.Result

end
-- ==== Proof.lean ====
/-
  The proof of `Cert.Claim`: the attention-pooling kernel and its reference compute the same extended reals.

  Both programs form, for every batch element, the projected features, the scores of every query against every key,
  and the softmax weights `exp (score − column maximum)` with the softmax taken along the query axis. The reference
  then normalises every weight by its column's sum, multiplies the features by the normalised weights and sums over
  both axes. The kernel sums the features over their rows first, weights that single row, and divides once by the
  column's sum. On real inputs these are one number: every score is real, so the column maximum is real, every weight
  a positive real and every column sum a positive real, and the identity is the exchange of two finite sums and the
  distributive law in ℝ. That the inputs are real is what the precondition says.

  The kernel's side: entry `(p, q)` of what a grid point stores is batch element `p` of its block pooled the short
  way, and the 32 blocks tile the result array. The reference's side: its run read one operation at a time, entry
  `(b, m)` of the result is batch element `b` pooled the long way. The three frames are the generated ones (the
  reference's is its run with the result dropped); no operation was rewritten in the idealization.
-/
import proofs.«405729_j22308060136280_3_alg».proof.Defs
import proofs.«405729_j22308060136280_3_alg».proof.Proof.Gen.Kernel
import proofs.«405729_j22308060136280_3_alg».proof.Proof.Gen.Kernel.Skeleton
import proofs.«405729_j22308060136280_3_alg».proof.Proof.Gen.Kernel.Launch
import proofs.«405729_j22308060136280_3_alg».proof.Proof.Gen.Kernel.Points
import proofs.«405729_j22308060136280_3_alg».proof.Proof.Gen.Kernel.Frame
import proofs.«405729_j22308060136280_3_alg».proof.Proof.Gen.KernelIdeal
import proofs.«405729_j22308060136280_3_alg».proof.Proof.Gen.KernelIdeal.Skeleton
import proofs.«405729_j22308060136280_3_alg».proof.Proof.Gen.KernelIdeal.Launch
import proofs.«405729_j22308060136280_3_alg».proof.Proof.Gen.KernelIdeal.Points
import proofs.«405729_j22308060136280_3_alg».proof.Proof.Gen.KernelIdeal.Frame
import proofs.«405729_j22308060136280_3_alg».proof.Proof.Gen.ReferenceIdeal
import proofs.«405729_j22308060136280_3_alg».proof.Proof.Gen.Pre_finite_inputs
import proofs.«405729_j22308060136280_3_alg».proof.Proof.Gen.KernelIdeal.Value
import proofs.«405729_j22308060136280_3_alg».proof.Proof.Gen.ReferenceIdeal.Run
import proofs.«405729_j22308060136280_3_alg».proof.Proof.Gen.ReferenceIdeal.Read
import proofs.«405729_j22308060136280_3_alg».proof.Proof.Pooling
import proofs.«405729_j22308060136280_3_alg».proof.Proof.PoolingLaw
import proofs.«405729_j22308060136280_3_alg».proof.Proof.RealInputs
import proofs.«405729_j22308060136280_3_alg».proof.Proof.RefPooling
import proofs.«405729_j22308060136280_3_alg».proof.Proof.KernelArray
import Idealize.ShloMosaic.Adequacy
import Idealize.ShloMosaic.Init

noncomputable section

namespace Cert.Proof

open Idealize.ShloMosaic Idealize.SL.Sem Idealize.ShloMosaic.ValueIdx Cert.Pool

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

/-- From memories that agree on the three arguments, the kernel's result array ends at the pooled array of the
    arguments (each batch element pooled the short way) and the reference's at each batch element pooled the long
    way; the inputs are real by the precondition, so the two agree entry by entry. -/
theorem algebraic : Cert.algebraic_KernelIdeal_ReferenceIdeal := by
  intro m ρ m' ρ' hpre hagree
  refine ⟨fun c => pooled (Cert.KernelIdeal.Result.feats m c) (Cert.KernelIdeal.Result.proj m c) (Cert.KernelIdeal.Result.bias m c),
    Cert.KernelIdeal.Result.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2, Cert.ReferenceIdeal.Read.val_main_v17_eq]
  obtain ⟨hx, hw, hβ⟩ := Cert.Pre_finite_inputs.RealInputs.real_of_pre _ _ _ (hpre c)
  funext i
  obtain ⟨b, q, rfl⟩ : ∃ (b : Fin 512) (q : Fin 256), i = ix2 b q := ⟨i 0, i 1, eq_ix2 i⟩
  rw [Cert.ReferenceIdeal.RefPooling.result_apply]
  exact (pooledLong_eq_pooledShort _ _ _ (fun n h => hx _) (fun k h => hw _) (fun k => hβ _) q).trans
    (pooled_ix2 (Cert.KernelIdeal.Result.feats m c) (Cert.KernelIdeal.Result.proj m c) (Cert.KernelIdeal.Result.bias m c) b q).symm

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
